-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S32x128 : Shape := ⟨2, ![32, 128]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_

variable [Facts]

def fn {F : FTy → Type} [FloatOps F] (main_arg0 : FVec F S32x8192x128 .f32) (main_arg1 : FVec F S32x128 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  main_v8
-- ==== Kernel.lean ====
abbrev S32x8192x128 : Shape := ⟨3, ![32, 8192, 128]⟩
abbrev S32x128 : Shape := ⟨2, ![32, 128]⟩
abbrev S32x1x128 : Shape := ⟨3, ![32, 1, 128]⟩
abbrev S32x1x1 : Shape := ⟨3, ![32, 1, 1]⟩
abbrev S1x8192x128 : Shape := ⟨3, ![1, 8192, 128]⟩
abbrev S1x1x128 : Shape := ⟨3, ![1, 1, 128]⟩
abbrev S1x1x1 : Shape := ⟨3, ![1, 1, 1]⟩
abbrev S8192x128 : Shape := ⟨2, ![8192, 128]⟩
abbrev S128x128 : Shape := ⟨2, ![128, 128]⟩
abbrev S1x128 : Shape := ⟨2, ![1, 128]⟩
abbrev S128x1 : Shape := ⟨2, ![128, 1]⟩
abbrev S128 : Shape := ⟨1, ![128]⟩
abbrev S1 : Shape := ⟨1, ![1]⟩
abbrev S1x1 : Shape := ⟨2, ![1, 1]⟩
abbrev S32 : Shape := ⟨1, ![32]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S32x8192x128, .f32⟩
  | .hbm, ⟨1, _⟩ => ⟨S32x128, .f32⟩
  | .hbm, ⟨2, _⟩ => ⟨S32x1x128, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x8192x128, .f32⟩
  | .local _ .vmem, ⟨1, _⟩ => ⟨S1x8192x128, .f32⟩
  | .local _ .vmem, ⟨2, _⟩ => ⟨S1x1x128, .f32⟩
  | .local _ .vmem, ⟨3, _⟩ => ⟨S1x1x128, .f32⟩
  | .local _ .vmem, ⟨4, _⟩ => ⟨S1x1x1, .f32⟩
  | .local _ .vmem, ⟨5, _⟩ => ⟨S1x1x1, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x128_S32x1x128 : S32x128.ShapeCasts S32x1x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  bitsLt_bf16_f32 : FTy.bits .bf16 < FTy.bits .f32
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  transposes_S1x128_p1_0_S128x1 : S1x128.Transposes [1, 0] S128x1
  reduces_S8192x128_S128 : S8192x128.Reduces [0] S128
  shapeCasts_S128_S1x128 : S128.ShapeCasts S1x128
  broadcasts_S128x1_S128x128 : S128x1.Broadcasts S128x128
  broadcasts_S1x128_S128x128 : S1x128.Broadcasts S128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S32x1x1_S32 : S32x1x1.ShapeCasts S32
  reducesTo_S32_S_d0 : S32.ReducesTo [0] S_
  h_S_ : 0 < S_.numel
  dot_S8192x128_S8192x128_S128x128_0_0_1_1_n_n_wf : DotDims.WF S8192x128 S8192x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S32x8192x128.size a
  hwx0_0 : ∀ i : grid0.Coords, EltTy.bits .f32 = 32 ∨ (Rect.block (s := S32x8192x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S32x1x128.size a
  hwx0_1 : ∀ i : grid0.Coords, EltTy.bits .f32 = 32 ∨ (Rect.block (s := S32x1x128) S1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S32x1x1.size a
  hwx0_2 : ∀ i : grid0.Coords, EltTy.bits .f32 = 32 ∨ (Rect.block (s := S32x1x1) S1x1x1.size (cc0_transform_2 i) (hinb0_2 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8192x128 : Shape := ⟨3, ![32, 8192, 128]⟩
abbrev S32x128 : Shape := ⟨2, ![32, 128]⟩
abbrev S32x128x128 : Shape := ⟨3, ![32, 128, 128]⟩
abbrev S32x128x1 : Shape := ⟨3, ![32, 128, 1]⟩
abbrev S32x1x128 : Shape := ⟨3, ![32, 1, 128]⟩
abbrev S_ : Shape := ⟨0, ![]⟩
abbrev S32 : Shape := ⟨1, ![32]⟩

abbrev nBuf : Space → Nat
  | .hbm => 44
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S32x128, .f32⟩
  | .hbm, ⟨2, _⟩ => ⟨S32x128x128, .f32⟩
  | .hbm, ⟨3, _⟩ => ⟨S32x128x1, .f32⟩
  | .hbm, ⟨4, _⟩ => ⟨S32x1x128, .f32⟩
  | .hbm, ⟨5, _⟩ => ⟨S32x128x128, .f32⟩
  | .hbm, ⟨6, _⟩ => ⟨S32x128x128, .f32⟩
  | .hbm, ⟨7, _⟩ => ⟨S32x128x128, .f32⟩
  | .hbm, ⟨8, _⟩ => ⟨S_, .f32⟩
  | .hbm, ⟨9, _⟩ => ⟨S32x128x128, .f32⟩
  | .hbm, ⟨10, _⟩ => ⟨S32x128x128, .f32⟩
  | .hbm, ⟨11, _⟩ => ⟨S_, .f32⟩
  | .hbm, ⟨12, _⟩ => ⟨S32x128, .f32⟩
  | .hbm, ⟨13, _⟩ => ⟨S32x128x1, .f32⟩
  | .hbm, ⟨14, _⟩ => ⟨S32x1x128, .f32⟩
  | .hbm, ⟨15, _⟩ => ⟨S32x128x128, .f32⟩
  | .hbm, ⟨16, _⟩ => ⟨S32x128x128, .f32⟩
  | .hbm, ⟨17, _⟩ => ⟨S32x128x128, .f32⟩
  | .hbm, ⟨18, _⟩ => ⟨S_, .f32⟩
  | .hbm, ⟨19, _⟩ => ⟨S32x128x128, .f32⟩
  | .hbm, ⟨20, _⟩ => ⟨S32x128x128, .f32⟩
  | .hbm, ⟨21, _⟩ => ⟨S32x128x128, .f32⟩
  | .hbm, ⟨22, _⟩ => ⟨S_, .f32⟩
  | .hbm, ⟨23, _⟩ => ⟨S32x128x128, .f32⟩
  | .hbm, ⟨24, _⟩ => ⟨S32x128x128, .f32⟩
  | .hbm, ⟨25, _⟩ => ⟨S32x128x128, .f32⟩
  | .hbm, ⟨26, _⟩ => ⟨S32x128x128, .f32⟩
  | .hbm, ⟨27, _⟩ => ⟨S_, .f32⟩
  | .hbm, ⟨28, _⟩ => ⟨S32x128x128, .f32⟩
  | .hbm, ⟨29, _⟩ => ⟨S32x128x128, .f32⟩
  | .hbm, ⟨30, _⟩ => ⟨S32x128x128, .f32⟩
  | .hbm, ⟨31, _⟩ => ⟨S_, .f32⟩
  | .hbm, ⟨32, _⟩ => ⟨S32x128x128, .f32⟩
  | .hbm, ⟨33, _⟩ => ⟨S32x128x128, .f32⟩
  | .hbm, ⟨34, _⟩ => ⟨S32x128x128, .f32⟩
  | .hbm, ⟨35, _⟩ => ⟨S_, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  bcast_S32x128_S32x128x1_0_1 : S32x128.BroadcastsInDim S32x128x1 (![0, 1] : Fin 2 → Fin S32x128x1.rank)
  bcast_S32x128_S32x1x128_0_2 : S32x128.BroadcastsInDim S32x1x128 (![0, 2] : Fin 2 → Fin S32x1x128.rank)
  bcast_S32x128x1_S32x128x128_0_1_2 : S32x128x1.BroadcastsInDim S32x128x128 (![0, 1, 2] : Fin 3 → Fin S32x128x128.rank)
  bcast_S32x1x128_S32x128x128_0_1_2 : S32x1x128.BroadcastsInDim S32x128x128 (![0, 1, 2] : Fin 3 → Fin S32x128x128.rank)
  bcast_S_S32x128x128 : S_.BroadcastsInDim S32x128x128 (![] : Fin 0 → Fin S32x128x128.rank)
  reducesTo_S32x8192x128_S32x128_d1 : S32x8192x128.ReducesTo [1] S32x128
  h_S_ : 0 < S_.numel
  reducesTo_S32x128x128_S32_d1_2 : S32x128x128.ReducesTo [1, 2] S32
  bcast_S_S32 : S_.BroadcastsInDim S32 (![] : Fin 0 → Fin S32.rank)
  reducesTo_S32_S_d0 : S32.ReducesTo [0] S_
  dot_S32x8192x128_S32x8192x128_S32x128x128_1_1_2_2_0_0_wf : DotDims.WF S32x8192x128 S32x8192x128 S32x128x128 [1] [1] [2] [2] [0] [0]

variable [Facts₀]

def dot_S32x8192x128_S32x8192x128_S32x128x128_1_1_2_2_0_0 : DotDims S32x8192x128 S32x8192x128 S32x128x128 where
  lhsContracting := [1]
  rhsContracting := [1]
  lhsNonContracting := [2]
  rhsNonContracting := [2]
  lhsBatch := [0]
  rhsBatch := [0]
  wf := dot_S32x8192x128_S32x8192x128_S32x128x128_1_1_2_2_0_0_wf

class Facts : Prop extends Facts₀ where

variable [Facts]
-- ==== Proof.LossSpec.lean ====
/-
  What both programs compute, as one function of the two argument arrays over the extended reals.

  For a batch row with feature matrix `X : [8192, 128]` and teacher vector `T : [128]`:
  `gram X i j = Σ_s X s i · X s j` (the student Gram matrix), `colSum X i = Σ_s X s i`, and the entry
  `(gram X i j)² + (8192 · (T i · T j))² − 2 · (colSum X i · T j)²`; the row's value is the sum of the
  entries over `(i, j)` divided by `16384`, and the loss is the sum of the 32 rows' values divided by `32`.
  The four float constants stay the words the programs print; the same word stands on both sides and is never
  evaluated. Also here: a host sum over axes `[1, 2]` of a `[32, 128, 128]` array, read at row `b`, is the
  double sum over the two dropped coordinates (sums over the extended reals commute and associate, so no
  finiteness is needed anywhere).
-/
import Idealize.ShloMosaic.PureOps.Ideal
import Idealize.ShloMosaic.PureOps.Ideal.Laws
import Idealize.ShloMosaic.PureOps.Reduce
import Idealize.ShloMosaic.Lib.ValueIdx

noncomputable section

namespace Cert.LossSpec

open Idealize.ShloMosaic Idealize.ShloMosaic.ValueIdx

/-- The sequence length `8192.0`, as the word both programs print. -/
abbrev cSeq : EReal := Ideal.ofBits .f32 0x46000000#32
/-- `2.0`. -/
abbrev cTwo : EReal := Ideal.ofBits .f32 0x40000000#32
/-- `128 · 128 = 16384.0`. -/
abbrev cDD : EReal := Ideal.ofBits .f32 0x46800000#32
/-- The batch size `32.0`. -/
abbrev cBatch : EReal := Ideal.ofBits .f32 0x42000000#32

/-- The student Gram matrix of one batch row: the features contracted over the sequence axis. -/
def gram (X : Fin 8192 → Fin 128 → EReal) (i j : Fin 128) : EReal := ∑ s : Fin 8192, X s i * X s j

/-- The column sums of one batch row. -/
def colSum (X : Fin 8192 → Fin 128 → EReal) (i : Fin 128) : EReal := ∑ s : Fin 8192, X s i

/-- One entry of the combined squared-kernel matrix. -/
def entry (X : Fin 8192 → Fin 128 → EReal) (T : Fin 128 → EReal) (i j : Fin 128) : EReal :=
  (gram X i j * gram X i j + (cSeq * (T i * T j)) * (cSeq * (T i * T j)))
    - cTwo * ((colSum X i * T j) * (colSum X i * T j))

/-- One batch row's value: the entries summed, row by row, over the feature pairs, divided by `16384`. -/
def sample (X : Fin 8192 → Fin 128 → EReal) (T : Fin 128 → EReal) : EReal :=
  Ideal.div (∑ i : Fin 128, ∑ j : Fin 128, entry X T i j) cDD

/-- Row `b` of the student features as a matrix. -/
abbrev rowX (x : (⟨3, ![32, 8192, 128]⟩ : Shape).Idx → EReal) (b : Fin 32) : Fin 8192 → Fin 128 → EReal :=
  fun s i => x (ix3 b s i)
/-- Row `b` of the teacher features as a vector. -/
abbrev rowT (t : (⟨2, ![32, 128]⟩ : Shape).Idx → EReal) (b : Fin 32) : Fin 128 → EReal := fun i => t (ix2 b i)

/-- The loss: the mean of the batch rows' values. -/
def loss (x : (⟨3, ![32, 8192, 128]⟩ : Shape).Idx → EReal) (t : (⟨2, ![32, 128]⟩ : Shape).Idx → EReal) : EReal :=
  Ideal.div (∑ b : Fin 32, sample (rowX x b) (rowT t b)) cBatch

/-- A sum over the indices of `[32]` is the sum over the coordinate. -/
theorem sum_idx1 (f : (⟨1, ![32]⟩ : Shape).Idx → EReal) : ∑ j : (⟨1, ![32]⟩ : Shape).Idx, f j = ∑ b : Fin 32, f (ix1 b) := by
  refine Fintype.sum_equiv ⟨fun j => j 0, fun b => ix1 b, fun j => (eq_ix1 j).symm, fun _ => rfl⟩ _ _ fun j => ?_
  exact congrArg f (eq_ix1 j)

/-- The indices of `[32, 128, 128]` that drop to row `b` when axes 1 and 2 are removed, summed, are the two
    dropped coordinates, summed one after the other. -/
theorem sum_filter_drop_row (h : (⟨3, ![32, 128, 128]⟩ : Shape).ReducesTo [1, 2] ⟨1, ![32]⟩)
    (y : (⟨3, ![32, 128, 128]⟩ : Shape).Idx → EReal) (b : Fin 32) :
    ∑ i ∈ Finset.univ.filter (fun i => h.drop i = ix1 b), y i = ∑ p : Fin 128, ∑ q : Fin 128, y (ix3 b p q) := by
  rw [← Fintype.sum_prod_type' (f := fun p q => y (ix3 b p q))]
  have hrow : ∀ i : (⟨3, ![32, 128, 128]⟩ : Shape).Idx, h.drop i = ix1 b → ix3 b (i 1) (i 2) = i := by
    intro i hi
    have h0 : (i 0).val = b.val := by
      have := congrArg (fun j : (⟨1, ![32]⟩ : Shape).Idx => (j 0).val) hi
      exact this
    funext a
    match a with
    | ⟨0, _⟩ => exact Fin.ext h0.symm
    | ⟨1, _⟩ => rfl
    | ⟨2, _⟩ => rfl
  refine Finset.sum_nbij' (fun i => (i 1, i 2)) (fun pq => ix3 b pq.1 pq.2) ?_ ?_ ?_ ?_ ?_
  · intro i _; exact Finset.mem_univ _
  · intro pq _
    refine Finset.mem_filter.2 ⟨Finset.mem_univ _, ?_⟩
    funext a
    match a with
    | ⟨0, _⟩ => rfl
  · intro i hi; exact hrow i (Finset.mem_filter.1 hi).2
  · intro pq _; rfl
  · intro i hi; exact (congrArg y (hrow i (Finset.mem_filter.1 hi).2)).symm

end Cert.LossSpec

end
-- ==== Proof.RefValue.lean ====
/-
  The reference's result is the loss of the specification.

  Each stage of the reference is read at an index given by its coordinates: the einsum at `(b, p, q)` is the
  Gram entry of row `b`; the teacher's outer product is `t[b,p] · t[b,q]`; the sum over the sequence axis at
  `(b, p)` is the column sum (the initial value of the sum is the zero word, and `0 + s = s`); the cross term
  is the column sum times `t[b,q]`. The sum over the two feature axes is a sum over the indices that drop to
  row `b`, which is the double sum of the specification; the quotients are the ideal division on both sides.
-/
import proofs.«143983_j48258252538614_1_alg».proof.Proof.Gen.ReferenceIdeal.Read
import proofs.«143983_j48258252538614_1_alg».proof.Proof.LossSpec

noncomputable section

namespace Cert.ReferenceIdeal.RefValue

open Cert.ReferenceIdeal Cert.ReferenceIdeal.Gen Cert.ReferenceIdeal.Read Cert.LossSpec
open Idealize.ShloMosaic Idealize.ShloMosaic.TcCoe Idealize.ShloMosaic.ValueIdx

variable (x0 : (⟨S32x8192x128, .f32⟩ : BufTy).Contents (Elt Ideal)) (x1 : (⟨S32x128, .f32⟩ : BufTy).Contents (Elt Ideal))

/-- The einsum over the sequence axis, at row `b` and features `(p, q)`, is the Gram entry. -/
theorem gram_at (b : Fin 32) (p q : Fin 128) :
    val_main_v0 (F := Ideal) x0 (ix3 b p q) = gram (rowX x0 b) p q := by
  rw [val_main_v0_apply]
  unfold gram
  refine Finset.sum_congr rfl fun s _ => ?_
  have el : lidx_main_v0 (ix3 b p q) s = ix3 b s p :=
    funext fun a => Fin.ext (by match a with | ⟨0, _⟩ => rfl | ⟨1, _⟩ => rfl | ⟨2, _⟩ => rfl)
  have er : ridx_main_v0 (ix3 b p q) s = ix3 b s q :=
    funext fun a => Fin.ext (by match a with | ⟨0, _⟩ => rfl | ⟨1, _⟩ => rfl | ⟨2, _⟩ => rfl)
  rw [el, er]

/-- The teacher's outer product at `(b, p, q)`. -/
theorem outer_at (b : Fin 32) (p q : Fin 128) :
    val_main_v5 (F := Ideal) x1 (ix3 b p q) = x1 (ix2 b p) * x1 (ix2 b q) := by
  rw [val_main_v5_apply, val_main_v3_apply, val_main_v1_apply, val_main_v4_apply, val_main_v2_apply]
  have e1 : idx_main_v1 (idx_main_v3 (ix3 b p q)) = ix2 b p :=
    funext fun a => Fin.ext (by match a with | ⟨0, _⟩ => rfl | ⟨1, _⟩ => rfl)
  have e2 : idx_main_v2 (idx_main_v4 (ix3 b p q)) = ix2 b q :=
    funext fun a => Fin.ext (by match a with | ⟨0, _⟩ => rfl | ⟨1, _⟩ => rfl)
  rw [e1, e2]
  rfl

/-- The sum over the sequence axis at `(b, p)` is the column sum: the initial value is zero. -/
theorem colSum_at (b : Fin 32) (p : Fin 128) :
    val_main_v8 (F := Ideal) x0 (ix2 b p) = colSum (rowX x0 b) p := by
  rw [val_main_v8_apply, val_main_cst_0_apply]
  show Ideal.ofBits .f32 0x00000000#32 + _ = _
  rw [Ideal.ofBits_zero_f32, zero_add]
  unfold colSum
  refine Finset.sum_congr rfl fun s _ => ?_
  exact congrArg x0 (funext fun a => Fin.ext (by match a with | ⟨0, _⟩ => rfl | ⟨1, _⟩ => rfl | ⟨2, _⟩ => rfl))

/-- The cross term at `(b, p, q)`: the column sum at `p` times the teacher at `q`. -/
theorem cross_at (b : Fin 32) (p q : Fin 128) :
    val_main_v13 (F := Ideal) x0 x1 (ix3 b p q) = colSum (rowX x0 b) p * x1 (ix2 b q) := by
  rw [val_main_v13_apply, val_main_v11_apply, val_main_v9_apply, val_main_v12_apply, val_main_v10_apply]
  have e1 : idx_main_v9 (idx_main_v11 (ix3 b p q)) = ix2 b p :=
    funext fun a => Fin.ext (by match a with | ⟨0, _⟩ => rfl | ⟨1, _⟩ => rfl)
  have e2 : idx_main_v10 (idx_main_v12 (ix3 b p q)) = ix2 b q :=
    funext fun a => Fin.ext (by match a with | ⟨0, _⟩ => rfl | ⟨1, _⟩ => rfl)
  rw [e1, e2, colSum_at]
  rfl

/-- The combined matrix at `(b, p, q)` is the specification's entry: the offsets added are the zero word. -/
theorem entry_at (b : Fin 32) (p q : Fin 128) :
    val_main_v26 (F := Ideal) x0 x1 (ix3 b p q) = entry (rowX x0 b) (rowT x1 b) p q := by
  rw [val_main_v26_apply, val_main_v20_apply, val_main_v16_apply, val_main_v15_apply, val_main_v14_apply,
    val_main_cst_1_apply, val_main_v19_apply, val_main_v18_apply, val_main_v7_apply, val_main_v6_apply,
    val_main_cst_apply, val_main_v17_apply, val_main_cst_2_apply, val_main_v25_apply, val_main_v24_apply,
    val_main_cst_4_apply, val_main_v23_apply, val_main_v22_apply, val_main_v21_apply, val_main_cst_3_apply,
    gram_at, outer_at, cross_at]
  simp only [Ideal.subf_def, Ideal.addf_def, Ideal.mulf_def, Ideal.ofBits_def, Ideal.ofBits_zero_f32, add_zero]
  rfl

/-- The sum over the two feature axes at row `b` is the double sum of the entries. -/
theorem rowSum_at (b : Fin 32) :
    val_main_v27 (F := Ideal) x0 x1 (ix1 b) = ∑ p : Fin 128, ∑ q : Fin 128, entry (rowX x0 b) (rowT x1 b) p q := by
  unfold val_main_v27
  simp only [Host.reduceAdd, Ideal.hostReduceAdd_def]
  unfold Ideal.hostReduceAdd
  rw [sum_filter_drop_row]
  show Ideal.ofBits .f32 0x00000000#32 + _ = _
  rw [Ideal.ofBits_zero_f32, zero_add]
  exact Finset.sum_congr rfl fun p _ => Finset.sum_congr rfl fun q _ => entry_at x0 x1 b p q

/-- Row `b`'s quotient is the specification's value of the row. -/
theorem sample_at (b : Fin 32) :
    val_main_v29 (F := Ideal) x0 x1 (ix1 b) = sample (rowX x0 b) (rowT x1 b) := by
  rw [val_main_v29_apply, val_main_v28_apply, val_main_cst_6_apply, rowSum_at]
  rfl

/-- THE REFERENCE'S RESULT: the loss, at the scalar's one index. -/
theorem result_eq : val_main_v31 (F := Ideal) x0 x1 = fun _ => loss x0 x1 := by
  funext i
  rw [val_main_v31_apply, val_main_v30_apply, val_main_cst_7_apply, val_main_cst_8_apply, sum_idx1]
  show Ideal.div (Ideal.ofBits .f32 0x00000000#32 + _) _ = _
  rw [Ideal.ofBits_zero_f32, zero_add]
  unfold loss
  exact congrArg (fun s => Ideal.div s cBatch) (Finset.sum_congr rfl fun b _ => sample_at x0 x1 b)

end Cert.ReferenceIdeal.RefValue

end
-- ==== Proof.KernelBody.lean ====
/-
  The kernel body's value: what one grid point stores is the specification's value of the batch row it loaded.

  The body loads a feature block `x0 : [1, 8192, 128]` and a teacher block `x1 : [1, 1, 128]`. With
  `X s i = x0 (0, s, i)` and `T i = x1 (0, 0, i)`: the matrix product of the feature matrix with itself,
  contracted over the sequence axis into a zero accumulator, is `gram X` (a change of float format is the
  identity on extended reals); the lane sum over the sequence axis is `colSum X`; the transposes and broadcasts
  place `T i`, `T j` and `colSum X i` at `(i, j)`; the pointwise part is `entry X T i j` (each added offset is the
  zero word); the two lane sums, columns first and then rows, are the double sum; and the quotient by `16384` is
  `sample X T`.
-/
import proofs.«143983_j48258252538614_1_alg».proof.Proof.Gen.KernelIdeal.Skeleton
import proofs.«143983_j48258252538614_1_alg».proof.Proof.LossSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.LossSpec
open Idealize.ShloMosaic Idealize.ShloMosaic.TcCoe Idealize.ShloMosaic.ValueIdx

/-! ## Two keepdims layouts -/

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-! ## The matrix product over the sequence axis -/

theorem lhs_gram_0 (i : S128x128.Idx) (q : dot_S8192x128_S8192x128_S128x128_0_0_1_1_n_n.contr.Idx) :
    (dot_S8192x128_S8192x128_S128x128_0_0_1_1_n_n.lhsIdx i q 0).val = (q ⟨0, by decide⟩).val :=
  dot_S8192x128_S8192x128_S128x128_0_0_1_1_n_n.lhsIdx_val_of_single rfl i q
theorem lhs_gram_1 (i : S128x128.Idx) (q : dot_S8192x128_S8192x128_S128x128_0_0_1_1_n_n.contr.Idx) :
    (dot_S8192x128_S8192x128_S128x128_0_0_1_1_n_n.lhsIdx i q 1).val = (i 0).val := by
  unfold DotDims.lhsIdx
  rw [dif_neg (show ¬(1 : Fin S8192x128.rank) ∈ dot_S8192x128_S8192x128_S128x128_0_0_1_1_n_n.lhsBatch by decide), dif_pos (show (1 : Fin S8192x128.rank) ∈ dot_S8192x128_S8192x128_S128x128_0_0_1_1_n_n.lhsNonContracting by decide)]
  rfl
theorem rhs_gram_0 (i : S128x128.Idx) (q : dot_S8192x128_S8192x128_S128x128_0_0_1_1_n_n.contr.Idx) :
    (dot_S8192x128_S8192x128_S128x128_0_0_1_1_n_n.rhsIdx i q 0).val = (q ⟨0, by decide⟩).val :=
  dot_S8192x128_S8192x128_S128x128_0_0_1_1_n_n.rhsIdx_val_of_single rfl i q
theorem rhs_gram_1 (i : S128x128.Idx) (q : dot_S8192x128_S8192x128_S128x128_0_0_1_1_n_n.contr.Idx) :
    (dot_S8192x128_S8192x128_S128x128_0_0_1_1_n_n.rhsIdx i q 1).val = (i 1).val := by
  unfold DotDims.rhsIdx
  rw [dif_neg (show ¬(1 : Fin S8192x128.rank) ∈ dot_S8192x128_S8192x128_S128x128_0_0_1_1_n_n.rhsBatch by decide), dif_pos (show (1 : Fin S8192x128.rank) ∈ dot_S8192x128_S8192x128_S128x128_0_0_1_1_n_n.rhsNonContracting by decide)]
  rfl

/-- The product of a `[8192, 128]` matrix with itself, both contracted on axis 0, into the zero accumulator: at
    `(i, j)` the sum over the sequence coordinate of the products of columns `i` and `j`. -/
theorem matmul_gram {φ : FTy} (v : FVec Ideal S8192x128 φ) (i j : Fin 128) :
    matmul dot_S8192x128_S8192x128_S128x128_0_0_1_1_n_n none v v (constant S128x128 .f32 0x00000000#32) (ix2 i j)
      = ∑ s : Fin 8192, v (ix2 s i) * v (ix2 s j) := by
  simp only [matmul]
  rw [Ideal.matmul_constant_zero_apply, ← Equiv.sum_comp (contrEquiv1 dot_S8192x128_S8192x128_S128x128_0_0_1_1_n_n 8192 rfl rfl).symm]
  refine Finset.sum_congr rfl fun k _ => ?_
  have hk := contrEquiv1_symm_val dot_S8192x128_S8192x128_S128x128_0_0_1_1_n_n 8192 rfl rfl k
  have el : dot_S8192x128_S8192x128_S128x128_0_0_1_1_n_n.lhsIdx (ix2 i j) ((contrEquiv1 dot_S8192x128_S8192x128_S128x128_0_0_1_1_n_n 8192 rfl rfl).symm k) = ix2 k i := funext fun a => Fin.ext (by
    match a with
    | ⟨0, _⟩ => exact (lhs_gram_0 _ _).trans hk
    | ⟨1, _⟩ => exact lhs_gram_1 _ _)
  have er : dot_S8192x128_S8192x128_S128x128_0_0_1_1_n_n.rhsIdx (ix2 i j) ((contrEquiv1 dot_S8192x128_S8192x128_S128x128_0_0_1_1_n_n 8192 rfl rfl).symm k) = ix2 k j := funext fun a => Fin.ext (by
    match a with
    | ⟨0, _⟩ => exact (rhs_gram_0 _ _).trans hk
    | ⟨1, _⟩ => exact rhs_gram_1 _ _)
  rw [el, er]

/-! ## The lane sums -/

/-- The sum over the sequence axis of a `[8192, 128]` matrix, at column `i`. -/
theorem sum_seq (v : FVec Ideal S8192x128 .f32) (h : S8192x128.Reduces [0] S128) (hφ : FKind.Formats .f32)
    (hacc : (0x00000000#32 : BitVec 32) = FKind.add.neutral .f32 hφ) (i : Fin 128) :
    multiReduction .add [0] S128 v 0x00000000#32 h hφ hacc (ix1 i) = ∑ s : Fin 8192, v (ix2 s i) :=
  (Ideal.multiReduction_add_single v 0x00000000#32 h hφ hacc (ix1 i)).trans
    (Finset.sum_congr rfl fun s _ => congrArg v (funext fun a => Fin.ext (by match a with | ⟨0, _⟩ => rfl | ⟨1, _⟩ => rfl)))

/-- The sum over the columns of a `[128, 128]` matrix, at row `i`. -/
theorem sum_cols (v : FVec Ideal S128x128 .f32) (h : S128x128.Reduces [1] S128) (hφ : FKind.Formats .f32)
    (hacc : (0x00000000#32 : BitVec 32) = FKind.add.neutral .f32 hφ) (i : Fin 128) :
    multiReduction .add [1] S128 v 0x00000000#32 h hφ hacc (ix1 i) = ∑ j : Fin 128, v (ix2 i j) :=
  (Ideal.multiReduction_add_single v 0x00000000#32 h hφ hacc (ix1 i)).trans
    (Finset.sum_congr rfl fun s _ => congrArg v (funext fun a => Fin.ext (by match a with | ⟨0, _⟩ => rfl | ⟨1, _⟩ => rfl)))

/-- The sum over the rows of a `[128, 1]` column, at its one column `u`. -/
theorem sum_rows (v : FVec Ideal S128x1 .f32) (h : S128x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ i : Fin 128, v (ix2 i u) :=
  (Ideal.multiReduction_add_single v 0x00000000#32 h hφ hacc (ix1 u)).trans
    (Finset.sum_congr rfl fun s _ => congrArg v (funext fun a => Fin.ext (by match a with | ⟨0, _⟩ => rfl | ⟨1, _⟩ => rfl)))

/-! ## The pointwise part -/

/-- The combined matrix at `(i, j)`, from what its four ingredients read there: the Gram matrix `G`, the teacher
    as a column `tc` and as a row `tr`, the column sums as a column `sc`. -/
theorem combined_at (G : FVec Ideal S128x128 .f32) (tc sc : FVec Ideal S128x1 .f32) (tr : FVec Ideal S1x128 .f32)
    (hc : S128x1.Broadcasts S128x128) (hr : S1x128.Broadcasts S128x128)
    (X : Fin 8192 → Fin 128 → EReal) (T : Fin 128 → EReal) (i j : Fin 128)
    (hG : G (ix2 i j) = gram X i j) (htc : tc (ix2 i (0 : Fin 1)) = T i) (htr : tr (ix2 (0 : Fin 1) j) = T j)
    (hsc : sc (ix2 i (0 : Fin 1)) = colSum X i) :
    subf
      (addf
        (mulf (addf G (broadcast S128x128 (Scalar.ofBits .f32 0x00000000#32))) (addf G (broadcast S128x128 (Scalar.ofBits .f32 0x00000000#32))))
        (mulf
          (addf (mulf (broadcast S128x128 (Scalar.ofBits .f32 0x46000000#32)) (mulf (broadcastTo S128x128 tc hc) (broadcastTo S128x128 tr hr))) (broadcast S128x128 (Scalar.ofBits .f32 0x00000000#32)))
          (addf (mulf (broadcast S128x128 (Scalar.ofBits .f32 0x46000000#32)) (mulf (broadcastTo S128x128 tc hc) (broadcastTo S128x128 tr hr))) (broadcast S128x128 (Scalar.ofBits .f32 0x00000000#32)))))
      (mulf (broadcast S128x128 (Scalar.ofBits .f32 0x40000000#32))
        (mulf
          (addf (mulf (broadcastTo S128x128 sc hc) (broadcastTo S128x128 tr hr)) (broadcast S128x128 (Scalar.ofBits .f32 0x00000000#32)))
          (addf (mulf (broadcastTo S128x128 sc hc) (broadcastTo S128x128 tr hr)) (broadcast S128x128 (Scalar.ofBits .f32 0x00000000#32)))))
      (ix2 i j)
    = entry X T i j := by
  have bc : broadcastTo S128x128 tc hc (ix2 i j) = T i := (broadcastTo_a1_ab_apply tc hc i j).trans htc
  have bs : broadcastTo S128x128 sc hc (ix2 i j) = colSum X i := (broadcastTo_a1_ab_apply sc hc i j).trans hsc
  have br : broadcastTo S128x128 tr hr (ix2 i j) = T j := (broadcastTo_1b_ab_apply tr hr i j).trans htr
  show ((G (ix2 i j) + Ideal.ofBits .f32 0x00000000#32) * (G (ix2 i j) + Ideal.ofBits .f32 0x00000000#32)
        + ((Ideal.ofBits .f32 0x46000000#32 * (broadcastTo S128x128 tc hc (ix2 i j) * broadcastTo S128x128 tr hr (ix2 i j))) + Ideal.ofBits .f32 0x00000000#32)
          * ((Ideal.ofBits .f32 0x46000000#32 * (broadcastTo S128x128 tc hc (ix2 i j) * broadcastTo S128x128 tr hr (ix2 i j))) + Ideal.ofBits .f32 0x00000000#32))
      - Ideal.ofBits .f32 0x40000000#32
        * (((broadcastTo S128x128 sc hc (ix2 i j) * broadcastTo S128x128 tr hr (ix2 i j)) + Ideal.ofBits .f32 0x00000000#32)
          * ((broadcastTo S128x128 sc hc (ix2 i j) * broadcastTo S128x128 tr hr (ix2 i j)) + Ideal.ofBits .f32 0x00000000#32))
      = _
  rw [bc, bs, br, hG, Ideal.ofBits_zero_f32]
  simp only [add_zero]
  rfl

/-! ## The body -/

/-- WHAT THE BODY STORES, at the block's one index: the value of the batch row the two loaded blocks hold. -/
theorem payload_eq (x0 : Vec Ideal S1x8192x128 .f32) (x1 : Vec Ideal S1x1x128 .f32) (y : S1x1x1.Idx) :
    k0_pay1 (F := Ideal) x0 x1 y
      = sample (fun s i => x0 (ix3 (0 : Fin 1) s i)) (fun i => x1 (ix3 (0 : Fin 1) (0 : Fin 1) i)) := by
  obtain ⟨u0, u1, u2, rfl⟩ : ∃ (u0 u1 u2 : Fin 1), y = ix3 u0 u1 u2 := ⟨y 0, y 1, y 2, eq_ix3 y⟩
  unfold k0_pay1
  dsimp only
  refine (shapeCast_ab_1ab_apply _ _ u0 u1 u2).trans ?_
  unfold sample
  refine congrArg (fun s => Ideal.div s cDD) ?_
  refine (shapeCast_a_1a_apply _ _ u1 u2).trans ?_
  refine (sum_rows _ _ _ _ u2).trans ?_
  refine Finset.sum_congr rfl fun i _ => ?_
  refine (shapeCast_a_a1_apply _ _ i u2).trans ?_
  refine (sum_cols _ _ _ _ i).trans ?_
  refine Finset.sum_congr rfl fun j _ => ?_
  have hfeat : ∀ (s : Fin 8192) (p : Fin 128),
      shapeCast S8192x128 x0 shapeCasts_S1x8192x128_S8192x128 (ix2 s p) = x0 (ix3 (0 : Fin 1) s p) :=
    fun s p => shapeCast_1ab_ab_apply x0 _ s p
  have hrow : ∀ (p : Fin 128),
      shapeCast S1x128 x1 shapeCasts_S1x1x128_S1x128 (ix2 (0 : Fin 1) p) = x1 (ix3 (0 : Fin 1) (0 : Fin 1) p) :=
    fun p => shapeCast_1ab_ab_apply x1 _ (0 : Fin 1) p
  refine combined_at _ _ _ _ _ _ _ _ i j ?_ ?_ ?_ ?_
  · -- the Gram matrix
    refine (matmul_gram _ i j).trans ?_
    unfold gram
    refine Finset.sum_congr rfl fun s _ => ?_
    show shapeCast S8192x128 x0 shapeCasts_S1x8192x128_S8192x128 (ix2 s i) * shapeCast S8192x128 x0 shapeCasts_S1x8192x128_S8192x128 (ix2 s j) = _
    rw [hfeat, hfeat]
  · -- the teacher as a column
    refine (transpose_ix2_apply _ _ i (0 : Fin 1)).trans ?_
    exact hrow i
  · -- the teacher as a row
    exact hrow j
  · -- the column sums as a column
    refine (transpose_ix2_apply _ _ i (0 : Fin 1)).trans ?_
    refine (shapeCast_a_1a_apply _ _ (0 : Fin 1) i).trans ?_
    refine (sum_seq _ _ _ _ i).trans ?_
    unfold colSum
    exact Finset.sum_congr rfl fun s _ => hfeat s i

end Cert.KernelIdeal.Body

end
-- ==== Proof.KernelValue.lean ====
/-
  The kernel's run, read: the result of the whole program is the loss of the specification.

  The region has 32 grid points; point `t` fetches batch row `t` of the student features (window 0) and of the
  teacher features reshaped to `[32, 1, 128]` by the host line before the region (window 1), and writes back the
  one-element block `t` of the `[32, 1, 1]` output (window 2). By the body's value that element is the
  specification's value of row `t`, so every written block is a block of ONE function of the argument arrays,
  `rowsOut`; the 32 blocks cover the output array, so the array ends holding `rowsOut`. The host lines after the
  region reshape it to `[32]`, sum it from the zero word and divide by `32`: the loss.
-/
import proofs.«143983_j48258252538614_1_alg».proof.Proof.Gen.KernelIdeal.Frame
import proofs.«143983_j48258252538614_1_alg».proof.Proof.KernelBody
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.RunValue

open Cert.KernelIdeal Cert.KernelIdeal.Gen Cert.LossSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The output array as one function of the arguments -/

/-- The `[32, 1, 1]` array of the batch rows' values. -/
def rowsOut (x : S32x8192x128.Idx → EReal) (t : S32x128.Idx → EReal) : S32x1x1.Idx → EReal :=
  fun i => sample (rowX x ⟨(i 0).val, (i 0).isLt⟩) (rowT t ⟨(i 0).val, (i 0).isLt⟩)

/-- At an index whose first coordinate is `b` it is row `b`'s value. -/
theorem rowsOut_at (x : S32x8192x128.Idx → EReal) (t : S32x128.Idx → EReal) (i : S32x1x1.Idx) (b : Fin 32)
    (h : (i 0).val = b.val) : rowsOut x t i = sample (rowX x b) (rowT t b) := by
  have hb : (⟨(i 0).val, (i 0).isLt⟩ : Fin 32) = b := Fin.ext h
  unfold rowsOut
  rw [hb]

/-- The host line before the region: the teacher features reshaped to `[32, 1, 128]`. -/
theorem teacher_entry (c : Dev nD) :
    (V m c main_v0 : S32x1x128.Idx → EReal)
      = shapeCast S32x1x128 (m ((c : Thread nD τ).loc main_arg1)) shapeCasts_S32x128_S32x1x128 := by
  show StableHlo.after hostOps0 (fun b => m (c, b)) (Proc.devRef .tc main_v0) = _
  after_results
  rfl

/-- That reshape at `(b, 0, p)` is the teacher at `(b, p)`. -/
theorem teacher_entry_at (c : Dev nD) (b : Fin 32) (p : Fin 128) :
    (V m c main_v0 : S32x1x128.Idx → EReal) (ix3 b (0 : Fin 1) p) = m ((c : Thread nD τ).loc main_arg1) (ix2 b p) := by
  rw [teacher_entry]
  exact shapeCast_apply (s := S32x128) (t := S32x1x128) (α := EReal) (m ((c : Thread nD τ).loc main_arg1))
    shapeCasts_S32x128_S32x1x128 (ix3 b (0 : Fin 1) p) (ix2 b p) (by
    rw [Shape.rowMajor_val_two, Shape.rowMajor_val_three]
    show b.val * 128 + p.val = (b.val * 1 + 0) * 128 + p.val
    rw [Nat.mul_one, Nat.add_zero])

/-- The printed index maps, decided over the 32 points: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem hz : (![0, 0, 0] : Fin 3 → Nat) = fun _ => 0 := funext fun a => by fin_cases a <;> rfl

/-- A grid point as a batch row. -/
def rowOf (t : Fin cfg0.N) : Fin 32 := ⟨t.val, by have hN : cfg0.N = 32 := N_0; have := t.isLt; omega⟩

/-- The feature block at point `t` is batch row `t` of the features as launched. -/
theorem feature_block_at (c : Dev nD) (t : Fin cfg0.N) (s : Fin 8192) (p : Fin 128) :
    (iblk m c 0 t : S1x8192x128.Idx → EReal) (ix3 (0 : Fin 1) s p) = m ((c : Thread nD τ).loc main_arg0) (ix3 (rowOf t) s p) := by
  obtain ⟨e0, e1, e2, -⟩ := idx_facts t
  show V m c main_arg0 (((cfg0.win 0).blk t).view.emb (ix3 (0 : Fin 1) s p)) = _
  refine (congrFun (V_main_arg0 m c) _).trans (congrArg (m ((c : Thread nD τ).loc main_arg0)) (funext fun a => Fin.ext ?_))
  match a with
  | ⟨0, _⟩ => show win0_0.index t (0 : Fin 3) * 1 + 1 * 0 = t.val; omega
  | ⟨1, _⟩ => show win0_0.index t (1 : Fin 3) * 8192 + 1 * s.val = s.val; omega
  | ⟨2, _⟩ => show win0_0.index t (2 : Fin 3) * 128 + 1 * p.val = p.val; omega

/-- The teacher block at point `t` is batch row `t` of the teacher as launched. -/
theorem teacher_block_at (c : Dev nD) (t : Fin cfg0.N) (p : Fin 128) :
    (iblk m c 1 t : S1x1x128.Idx → EReal) (ix3 (0 : Fin 1) (0 : Fin 1) p) = m ((c : Thread nD τ).loc main_arg1) (ix2 (rowOf t) p) := by
  obtain ⟨-, -, -, e0, e1, e2, -⟩ := idx_facts t
  show (V m c main_v0 : S32x1x128.Idx → EReal) (((cfg0.win 1).blk t).view.emb (ix3 (0 : Fin 1) (0 : Fin 1) p)) = _
  refine Eq.trans (congrArg (V m c main_v0 : S32x1x128.Idx → EReal) (funext fun a => Fin.ext ?_)) (teacher_entry_at m c (rowOf t) p)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 128 + 1 * p.val = p.val; omega

/-- WHAT POINT `t` WRITES BACK is block `t` of `rowsOut` of the argument arrays. -/
theorem flushed_eq (c : Dev nD) (t : Fin cfg0.N) :
    (dats m 0 c).flushed 2 t
      = ((cfg0.win 2).blk t).view.read (Elt Ideal) (rowsOut (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S1x8192x128) hz, View.ld_unit_zero (S := S1x1x128) hz]
  obtain ⟨-, -, -, -, -, -, e0, e1, e2⟩ := idx_facts t
  funext y
  show k0_pay1 (F := Ideal) (iblk m c 0 t) (iblk m c 1 t) y
    = rowsOut (m ((c : Thread nD τ).loc main_arg0)) (m ((c : Thread nD τ).loc main_arg1)) (((cfg0.win 2).blk t).view.emb y)
  refine (Body.payload_eq (iblk m c 0 t) (iblk m c 1 t) y).trans ?_
  refine Eq.trans ?_ (rowsOut_at _ _ (((cfg0.win 2).blk t).view.emb y) (rowOf t) ?_).symm
  · exact congrArg₂ sample (funext fun s => funext fun p => feature_block_at m c t s p) (funext fun p => teacher_block_at m c t p)
  · show win0_2.index t (0 : Fin 3) * 1 + 1 * (y 0).val = t.val
    have hy : (y 0).val < 1 := (y 0).isLt
    omega

/-- An index of the output array is in point `t`'s block iff each coordinate is in the block's range on its axis. -/
theorem mem_blk (t : Fin cfg0.N) (i : S32x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v1).slice (win0_2.rect t)).set ↔ _
  rw [View.set_slice_whole, Rect.mem_set_unit]
  exact Iff.rfl

/-- Every index of the output array is in the block of the point its first coordinate names. -/
theorem covered (i : S32x1x1.Idx) : ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 1 := (i 2).isLt
  have hN : cfg0.N = 32 := N_0
  refine ⟨⟨(i 0).val, by omega⟩, flush0_2 _, ?_⟩
  obtain ⟨-, -, -, -, -, -, e0, e1, e2⟩ := idx_facts ⟨(i 0).val, by omega⟩
  rw [mem_blk]
  intro a
  match a with
  | ⟨0, _⟩ => show win0_2.index ⟨(i 0).val, _⟩ (0 : Fin 3) * 1 ≤ (i 0).val ∧ (i 0).val < win0_2.index ⟨(i 0).val, _⟩ (0 : Fin 3) * 1 + 1; simp only at e0; omega
  | ⟨1, _⟩ => show win0_2.index ⟨(i 0).val, _⟩ (1 : Fin 3) * 1 ≤ (i 1).val ∧ (i 1).val < win0_2.index ⟨(i 0).val, _⟩ (1 : Fin 3) * 1 + 1; omega
  | ⟨2, _⟩ => show win0_2.index ⟨(i 0).val, _⟩ (2 : Fin 3) * 1 ≤ (i 2).val ∧ (i 2).val < win0_2.index ⟨(i 0).val, _⟩ (2 : Fin 3) * 1 + 1; omega

/-- THE OUTPUT ARRAY after the region: `rowsOut` of the argument arrays. -/
theorem final_rows (c : Dev nD) :
    (dats m 0 c).arrAt 2 cfg0.N = rowsOut (m ((c : Thread nD τ).loc main_arg0)) (m ((c : Thread nD τ).loc main_arg1)) :=
  (dats m 0 c).arrAt_eq_of_cover 2 _ (fun t _ => flushed_eq m c t) covered

/-! ## The host lines after the region -/

/-- The program's result: the reshaped rows summed from the zero word and divided by `32` — the loss. -/
theorem result_eq (c : Dev nD) :
    (Pipeline.afterTail₀ cfgs (dats m) 0 (V0 m) [hostOps1] c main_v4 : S_.Idx → EReal)
      = fun _ => loss (m ((c : Thread nD τ).loc main_arg0)) (m ((c : Thread nD τ).loc main_arg1)) := by
  have harr : Pipeline.withArrays (cfgs 0).spec c (V0 m c) (fun w => (dats m 0 c).arrAt w (cfgs 0).N) (Proc.devRef .tc main_v1)
      = rowsOut (m ((c : Thread nD τ).loc main_arg0)) (m ((c : Thread nD τ).loc main_arg1)) :=
    (Pipeline.withArrays_arr spec0 launch0.win.arr_inj c _ _ 2).trans (final_rows m c)
  unfold Pipeline.afterTail₀
  show StableHlo.after hostOps1 _ (Proc.devRef .tc main_v4) = _
  after_results
  rw [harr]
  funext k
  show Ideal.div (Ideal.hostReduceAdd reducesTo_S32_S_d0
      (shapeCast S32 (rowsOut (m ((c : Thread nD τ).loc main_arg0)) (m ((c : Thread nD τ).loc main_arg1))) shapeCasts_S32x1x1_S32)
      (Ideal.ofBits .f32 0x00000000#32) k) (Ideal.ofBits .f32 0x42000000#32) = _
  rw [Ideal.hostReduceAdd_total reducesTo_S32_S_d0 (fun b => b.elim0), Ideal.ofBits_zero_f32, zero_add, sum_idx1]
  unfold loss
  refine congrArg (fun s => Ideal.div s cBatch) (Finset.sum_congr rfl fun b _ => ?_)
  refine (shapeCast_apply _ _ (ix1 b) (ix3 b (0 : Fin 1) (0 : Fin 1)) (by
    rw [Shape.rowMajor_val_three, Shape.rowMajor_val_one]
    show (b.val * 1 + 0) * 1 + 0 = b.val
    omega)).trans ?_
  exact rowsOut_at _ _ _ b rfl

/-! ## The run -/

/-- Every weakly fair execution of the idealized kernel program terminates with its result at the loss of the
    arguments as launched, the arguments unchanged. -/
theorem run : θ_run defs (onTc (τ := τ) (main (F := Ideal))) ⟨m, fun _ => 0, ρ⟩ fun r => ∀ c : Dev nD,
      r.2.mem ((c.tc : Thread nD τ).loc main_v4)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v4 (Pipeline.mem_restRefs_of main_v4 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.RunValue

end
-- ==== Proof.lean ====
/-
  The certificate of a distillation loss with a degree-2 polynomial kernel: a Pallas kernel that streams one batch
  row per grid point against its jnp reference, equal over the extended reals.

  For student features `x : [32, 8192, 128]` and teacher features `t : [32, 128]` both programs compute, per batch
  row `b`, the sum over feature pairs `(i, j)` of
      `(Σ_s x[b,s,i]·x[b,s,j])² + (8192·(t[b,i]·t[b,j]))² − 2·((Σ_s x[b,s,i])·t[b,j])²`
  divided by `16384`, and then the mean of the 32 rows (Proof/LossSpec.lean states it once). The kernel takes the
  Gram matrix by a matrix product into a zero accumulator where the reference takes an einsum, and sums the
  combined matrix one axis at a time where the reference sums over both feature axes at once; at the ideal
  instance these are the same sums (addition of extended reals commutes and associates, and the zero word is
  `0`), every other operation and every float constant is the same on both sides, and no law used needs the inputs
  finite, so the precondition is never opened.

  The kernel's two frames are the generated ones; the reference's frame is its generated run with the result
  dropped; the ideal pass rewrote nothing, so `preserves` is trivial; `algebraic` sets the kernel's run
  (Proof/KernelValue.lean, over Proof/KernelBody.lean) beside the reference's (Proof/RefValue.lean), both posted
  at the specification's `loss` of the arguments.
-/
import proofs.«143983_j48258252538614_1_alg».proof.Defs
import proofs.«143983_j48258252538614_1_alg».proof.Proof.Gen.Kernel
import proofs.«143983_j48258252538614_1_alg».proof.Proof.Gen.Kernel.Skeleton
import proofs.«143983_j48258252538614_1_alg».proof.Proof.Gen.Kernel.Launch
import proofs.«143983_j48258252538614_1_alg».proof.Proof.Gen.Kernel.Points
import proofs.«143983_j48258252538614_1_alg».proof.Proof.Gen.Kernel.Frame
import proofs.«143983_j48258252538614_1_alg».proof.Proof.Gen.KernelIdeal
import proofs.«143983_j48258252538614_1_alg».proof.Proof.Gen.KernelIdeal.Skeleton
import proofs.«143983_j48258252538614_1_alg».proof.Proof.Gen.KernelIdeal.Launch
import proofs.«143983_j48258252538614_1_alg».proof.Proof.Gen.KernelIdeal.Points
import proofs.«143983_j48258252538614_1_alg».proof.Proof.Gen.KernelIdeal.Frame
import proofs.«143983_j48258252538614_1_alg».proof.Proof.Gen.ReferenceIdeal
import proofs.«143983_j48258252538614_1_alg».proof.Proof.Gen.Pre_finite_inputs
import proofs.«143983_j48258252538614_1_alg».proof.Proof.Gen.ReferenceIdeal.Run
import proofs.«143983_j48258252538614_1_alg».proof.Proof.Gen.ReferenceIdeal.Read
import proofs.«143983_j48258252538614_1_alg».proof.Proof.LossSpec
import proofs.«143983_j48258252538614_1_alg».proof.Proof.RefValue
import proofs.«143983_j48258252538614_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the loss of the arguments: the
    kernel's run reads it off the output rows and the host tail, the reference's off its stages. -/
theorem algebraic : Cert.algebraic_KernelIdeal_ReferenceIdeal := by
  intro m ρ m' ρ' _ hagree
  refine ⟨fun c => (fun _ => Cert.LossSpec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v31_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
